-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S524288x128 .f32) (main_arg1 : FVec F S128x128 .f32) (main_arg2 : FVec F S128 .f32) (main_arg3 : FVec F S128 .f32) (main_arg4 : FVec F S128 .f32) (main_arg5 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S16384x128 : Shape := ⟨2, ![16384, 128]⟩
abbrev S_ : Shape := ⟨0, ![]⟩
abbrev S8192x128 : Shape := ⟨2, ![8192, 128]⟩

abbrev nBuf : Space → Nat
  | .hbm => 47
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .i1⟩
  | .hbm, ⟨31, _⟩ => ⟨S_, .f32⟩
  | .hbm, ⟨32, _⟩ => ⟨S128x128, .f32⟩
  | .hbm, ⟨33, _⟩ => ⟨S128x128, .i1⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .bf16⟩
  | .hbm, ⟨45, _⟩ => ⟨S1x128, .f32⟩
  | .hbm, ⟨46, _⟩ => ⟨S524288x128, .f32⟩
  | .local _ .vmem, ⟨0, _⟩ => ⟨S16384x128, .f32⟩
  | .local _ .vmem, ⟨1, _⟩ => ⟨S16384x128, .f32⟩
  | .local _ .vmem, ⟨2, _⟩ => ⟨S1x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_cst_6 : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16384x128_S16384x128_0_0 : ∀ a, (![0, 0] : Fin 2 → Nat) a + S16384x128.size a ≤ S16384x128.size a
  h_S16384x128 : 0 < S16384x128.numel
  reduces_S16384x128_S128 : S16384x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S128x128_S128x128_1_0 : S128x128.Transposes [1, 0] S128x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S524288x128.size a
  hwx1_5 : ∀ i : grid1.Coords, EltTy.bits .f32 = 32 ∨ (Rect.block (s := S524288x128) S8192x128.size (cc1_transform_5 i) (hinb1_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S524288x128, .f32⟩
  | .hbm, ⟨22, _⟩ => ⟨S524288x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S524288x128, .f32⟩
  | .hbm, ⟨29, _⟩ => ⟨S524288x128, .f32⟩
  | .hbm, ⟨30, _⟩ => ⟨S1x128, .f32⟩
  | .hbm, ⟨31, _⟩ => ⟨S524288x128, .f32⟩
  | .hbm, ⟨32, _⟩ => ⟨S524288x128, .f32⟩
  | .hbm, ⟨33, _⟩ => ⟨S1x128, .f32⟩
  | .hbm, ⟨34, _⟩ => ⟨S524288x128, .f32⟩
  | .hbm, ⟨35, _⟩ => ⟨S524288x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .i1⟩
  | .hbm, ⟨42, _⟩ => ⟨S_, .f32⟩
  | .hbm, ⟨43, _⟩ => ⟨S128x128, .f32⟩
  | .hbm, ⟨44, _⟩ => ⟨S128x128, .i1⟩
  | .hbm, ⟨45, _⟩ => ⟨S_, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_cst_8 : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  reducesTo_S524288x128_S128_d0 : S524288x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.Spec.lean ====
/-
  Batch normalisation over the batch axis followed by a product with a ternarised weight matrix, as two
  functions of the same arrays on the extended reals.

  The arrays: `x` is 524288 × 128 (batch × feature), `γ`, `β` per feature, `w` a 128 × 128 matrix indexed
  (output, feature), `bias` per output.  Per feature `i` write `S i = ∑_b x b i` and `Q i = ∑_b (x b i)²`, and
  `n = 524288`.

  * The one-pass statistics: mean `μ = S / n`, variance `Q / n − μ²`, the row normalised as
    `x · (γ · r) + (β − μ · (γ · r))` with `r = (variance + ε)^(−1/2)`.
  * The two-pass statistics: the same mean, variance `(∑_b (x b i − μ)²) / n`, the row normalised as
    `((x − μ) · r) · γ + β`.

  Both then take `∑_i normalised b i · w o i + bias o`.  Over the reals the two variances are one number
  (`∑ (x − μ)² = Q − n μ²` when `μ = S / n`) and the two affine forms agree by distributivity; both steps need
  every entry finite, which is where a certificate uses its precondition.
-/
import Idealize.ShloMosaic.PureOps.Ideal
import Idealize.ShloMosaic.Lib.ValueIdx

noncomputable section

open Idealize.ShloMosaic Idealize.ShloMosaic.ValueIdx

namespace Cert.BNSpec

abbrev SX : Shape := ⟨2, ![524288, 128]⟩
abbrev SW : Shape := ⟨2, ![128, 128]⟩
abbrev SV : Shape := ⟨1, ![128]⟩

/-- The batch size 524288 = 2¹⁹ as the f32 word both programs divide by. -/
abbrev nB : EReal := Ideal.ofBits .f32 0x49000000#32
/-- The f32 nearest 1e-5, the word both programs add to the variance. -/
abbrev eps : EReal := Ideal.ofBits .f32 0x3727C5AC#32

/-- Column sum of `x`. -/
def colSum (x : SX.Idx → EReal) (i : Fin 128) : EReal := ∑ b : Fin 524288, x (ix2 b i)
/-- Column sum of squares of `x`. -/
def colSumSq (x : SX.Idx → EReal) (i : Fin 128) : EReal := ∑ b : Fin 524288, x (ix2 b i) * x (ix2 b i)

/-- The batch mean of feature `i`. -/
def mean (x : SX.Idx → EReal) (i : Fin 128) : EReal := Ideal.div (colSum x i) nB

/-! ### One pass: `E[x²] − μ²`, scale and shift folded -/

def var1 (x : SX.Idx → EReal) (i : Fin 128) : EReal := Ideal.div (colSumSq x i) nB - mean x i * mean x i
def scale1 (x : SX.Idx → EReal) (γ : SV.Idx → EReal) (i : Fin 128) : EReal := γ (ix1 i) * Ideal.rsqrt (var1 x i + eps)
def shift1 (x : SX.Idx → EReal) (γ β : SV.Idx → EReal) (i : Fin 128) : EReal := β (ix1 i) - mean x i * scale1 x γ i
def norm1 (x : SX.Idx → EReal) (γ β : SV.Idx → EReal) (b : Fin 524288) (i : Fin 128) : EReal :=
  x (ix2 b i) * scale1 x γ i + shift1 x γ β i

/-! ### Two passes: `E[(x − μ)²]`, normalise then scale and shift -/

def var2 (x : SX.Idx → EReal) (i : Fin 128) : EReal :=
  Ideal.div (∑ b : Fin 524288, (x (ix2 b i) - mean x i) * (x (ix2 b i) - mean x i)) nB
def norm2 (x : SX.Idx → EReal) (γ β : SV.Idx → EReal) (b : Fin 524288) (i : Fin 128) : EReal :=
  (x (ix2 b i) - mean x i) * Ideal.rsqrt (var2 x i + eps) * γ (ix1 i) + β (ix1 i)

/-- The ternarised weight matrix: `+1` where `wt − α > 0`, else `−1` where `wt − α < 1`, else `0` (entry (o, i) uses `α i`);
    the three f32 words are those of `0`, `1` and `−1`, and the comparisons are those of the extended reals. -/
def tern (wt : SW.Idx → EReal) (α : SV.Idx → EReal) : SW.Idx → EReal := fun j =>
  Scalar.select (FloatOps.cmpf (F := Ideal) (φ := .f32) .ogt (wt j - α (ix1 (j 1)) : EReal) (Ideal.ofBits .f32 0x00000000#32))
    (Ideal.ofBits .f32 0x3F800000#32 : EReal)
    (Scalar.select (FloatOps.cmpf (F := Ideal) (φ := .f32) .olt (wt j - α (ix1 (j 1)) : EReal) (Ideal.ofBits .f32 0x3F800000#32))
      (Ideal.ofBits .f32 0xBF800000#32 : EReal) (Ideal.ofBits .f32 0x00000000#32 : EReal))

/-- The product of normalised rows with the matrix `w` (indexed output, feature), plus the bias. -/
def affine (xn : Fin 524288 → Fin 128 → EReal) (w : SW.Idx → EReal) (bias : SV.Idx → EReal) : SX.Idx → EReal :=
  fun j => (∑ i : Fin 128, xn (j 0) i * w (ix2 (j 1) i)) + bias (ix1 (j 1))

/-- The kernel's result as a function of the arrays. -/
def out1 (x : SX.Idx → EReal) (w : SW.Idx → EReal) (bias γ β : SV.Idx → EReal) : SX.Idx → EReal :=
  affine (norm1 x γ β) w bias
/-- The reference's result as a function of the arrays. -/
def out2 (x : SX.Idx → EReal) (w : SW.Idx → EReal) (bias γ β : SV.Idx → EReal) : SX.Idx → EReal :=
  affine (norm2 x γ β) w bias

end Cert.BNSpec

end
-- ==== Proof.Stats.lean ====
import proofs.«177256_j65661460021995_1_alg».proof.Proof.Gen.KernelIdeal.Frame
import proofs.«177256_j65661460021995_1_alg».proof.Proof.Spec
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

variable (m : (ℓ : Loc nD τ sig) → Buf (Elt Ideal) ℓ) (ρ : Dev nD → PrngReg)

/-! # The first region: column sums and column sums of squares

The first kernel walks the 524288 × 128 array `x` in 32 blocks of 16384 rows.  It keeps two 1 × 128 rows; at the
first block it sets them to zero, at every block it adds to the first row the column sums of the block and to the second
the column sums of the block's squares, and after the last block the two rows are written to the two result arrays.
Read over the extended reals the first array therefore holds `∑_b x b i` and the second `∑_b (x b i)²`: a sum over
the rows block after block is the sum over all rows, by associativity and commutativity of the addition alone. -/

/-! ## What one grid point leaves in the two accumulator rows

Each grid point loads its 16384 × 128 block `x` of the input and each of the two 1 × 128 accumulator rows, and
stores back `row + (column sums of x)` resp. `row + (column sums of x * x)`.  The first point first overwrites both
rows with zeros and then does the same, so it leaves `0 + (column sums …)`. -/

section Pieces
variable {F : FTy → Type} [FloatOps F]

/-- The offsets of a whole-row access, as the constant zero map. -/
theorem hz : (![0, 0] : Fin 2 → Nat) = fun _ => 0 := funext fun a => by fin_cases a <;> rfl

/-- A later point: the first row becomes `old row + column sums of the block`. -/
theorem out_B_1 (c : Dev nD) (i : grid0.Coords) (a1 : Memref sig .tc .vmem S16384x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S16384x128 .f32) (xo1 xo2 : Vec F S1x128 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S16384x128) hz,
    View.ld_unit_zero (S := S1x128) hz]

/-- A later point: the second row becomes `old row + column sums of the squared block`. -/
theorem out_B_2 (c : Dev nD) (i : grid0.Coords) (a1 : Memref sig .tc .vmem S16384x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S16384x128 .f32) (xo1 xo2 : Vec F S1x128 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S16384x128) hz,
    View.ld_unit_zero (S := S1x128) hz]

/-- The first point: the first row is reset to zeros, read back, and becomes `0 + column sums of the block`. -/
theorem out_A_1 (c : Dev nD) (i : grid0.Coords) (a1 : Memref sig .tc .vmem S16384x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S16384x128 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S16384x128) hz]

/-- The first point: the second row is reset to zeros, read back, and becomes `0 + column sums of the squared block`. -/
theorem out_A_2 (c : Dev nD) (i : grid0.Coords) (a1 : Memref sig .tc .vmem S16384x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S16384x128 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S16384x128) hz]

end Pieces

/-! ## The payloads at an index, over the extended reals

At the ideal values the lane reduction of a 16384 × 128 block at lane `i` is `∑ r, x r i`; the cast of the 128 lane
sums to a 1 × 128 row only renames the index; and the stored zero word is the number `0`. -/

section Payloads

/-- Putting row `r` back in front of lane `i` gives the block index `(r, i)`. -/
theorem lift_eq (i : Fin 128) (r : Fin 16384) :
    reduces_S16384x128_S128.lift (ix1 i) r = (ix2 r i : S16384x128.Idx) :=
  funext fun a => match a with
    | ⟨0, _⟩ => Fin.ext rfl
    | ⟨1, _⟩ => Fin.ext rfl

/-- The column sums of a block, at lane `i`. -/
theorem colred_apply (x : FVec Ideal S16384x128 .f32) (i : Fin 128) :
    (multiReduction .add [0] S128 x 0x00000000#32 reduces_S16384x128_S128 (.inl rfl) rfl : FVec Ideal S128 .f32) (ix1 i)
      = ∑ r : Fin 16384, x (ix2 r i) :=
  (Ideal.multiReduction_add_single x 0x00000000#32 reduces_S16384x128_S128 (.inl rfl) rfl (ix1 i)).trans
    (Finset.sum_congr rfl fun r _ => congrArg x (lift_eq i r))

/-- Dropping the leading unit coordinate of a 1 × 128 index leaves the lane. -/
theorem tail_ix2 (z : Fin 1) (i : Fin 128) : (fun a : Fin 1 => (ix2 z i : S1x128.Idx) a.succ) = (ix1 i : S128.Idx) :=
  funext fun a => match a with | ⟨0, _⟩ => rfl

/-- The 128 lane sums, cast to a 1 × 128 row, at `(0, i)`. -/
theorem rowcast_apply (v : FVec Ideal S128 .f32) (z : Fin 1) (i : Fin 128) :
    (shapeCast S1x128 v shapeCasts_S128_S1x128 : FVec Ideal S1x128 .f32) (ix2 z i) = v (ix1 i) :=
  (shapeCast_addUnit_apply ![128] v shapeCasts_S128_S1x128 (ix2 z i)).trans (congrArg v (tail_ix2 z i))

/-- The first row's update: `acc + column sums of the block`. -/
theorem pay3_apply (x : Vec Ideal S16384x128 .f32) (acc : Vec Ideal S1x128 .f32) (z : Fin 1) (i : Fin 128) :
    (k0_pay3 x acc : FVec Ideal S1x128 .f32) (ix2 z i) = acc (ix2 z i) + ∑ r : Fin 16384, x (ix2 r i) := by
  unfold k0_pay3
  show (shapeCast S1x128 acc shapeCasts_S1x128_S1x128 : FVec Ideal S1x128 .f32) (ix2 z i)
      + (shapeCast S1x128 (multiReduction .add [0] S128 x 0x00000000#32 reduces_S16384x128_S128 (.inl rfl) rfl : FVec Ideal S128 .f32)
          shapeCasts_S128_S1x128 : FVec Ideal S1x128 .f32) (ix2 z i) = _
  refine congrArg₂ (· + ·) (congrFun (shapeCast_self acc shapeCasts_S1x128_S1x128) (ix2 z i)) ?_
  exact (rowcast_apply _ z i).trans (colred_apply x i)

/-- The second row's update: `acc + column sums of the squared block`. -/
theorem pay4_apply (x : Vec Ideal S16384x128 .f32) (acc : Vec Ideal S1x128 .f32) (z : Fin 1) (i : Fin 128) :
    (k0_pay4 x acc : FVec Ideal S1x128 .f32) (ix2 z i) = acc (ix2 z i) + ∑ r : Fin 16384, x (ix2 r i) * x (ix2 r i) := by
  unfold k0_pay4
  show (shapeCast S1x128 acc shapeCasts_S1x128_S1x128 : FVec Ideal S1x128 .f32) (ix2 z i)
      + (shapeCast S1x128 (multiReduction .add [0] S128 (mulf x x : FVec Ideal S16384x128 .f32) 0x00000000#32 reduces_S16384x128_S128 (.inl rfl) rfl : FVec Ideal S128 .f32)
          shapeCasts_S128_S1x128 : FVec Ideal S1x128 .f32) (ix2 z i) = _
  refine congrArg₂ (· + ·) (congrFun (shapeCast_self acc shapeCasts_S1x128_S1x128) (ix2 z i)) ?_
  exact (rowcast_apply _ z i).trans (colred_apply (mulf x x) i)

/-- The reset rows hold the number zero. -/
theorem pay1_apply (j : S1x128.Idx) : (k0_pay1 (F := Ideal) : FVec Ideal S1x128 .f32) j = 0 := Ideal.ofBits_zero_f32
theorem pay2_apply (j : S1x128.Idx) : (k0_pay2 (F := Ideal) : FVec Ideal S1x128 .f32) j = 0 := Ideal.ofBits_zero_f32

end Payloads

/-! ## The running rows, point by point

After the first point the rows hold `0 + (sums of block 0)`; after every later point they hold what the point before
left plus the sums of that point's block. -/

section Recursion
variable {F : FTy → Type} [FloatOps F]
variable (V : (c : Dev nD) → (b : Ref sig .tc) → Buf (Elt F) ((c : Thread nD τ).loc b))

theorem outs_A_1 (c : Dev nD) (t : Fin cfg0.N) (h0 : t.val % 32 = 0) :
    (outsAt0 V c t.val t.isLt).1 = k0_pay3 (iblk0 V c 0 t) (k0_pay1 (F := F)) := by
  rw [outsAt0_A V c t h0]
  dsimp only
  exact out_A_1 (F := F) c (grid0.coords t) (ms0_0 t) (hs0_0 t) (ms0_1 t) (hs0_1 t) (ms0_2 t) (hs0_2 t)
    ((hcond0_0 t).mpr h0) (iblk0 V c 0 t)

theorem outs_A_2 (c : Dev nD) (t : Fin cfg0.N) (h0 : t.val % 32 = 0) :
    (outsAt0 V c t.val t.isLt).2 = k0_pay4 (iblk0 V c 0 t) (k0_pay2 (F := F)) := by
  rw [outsAt0_A V c t h0]
  dsimp only
  exact out_A_2 (F := F) c (grid0.coords t) (ms0_0 t) (hs0_0 t) (ms0_1 t) (hs0_1 t) (ms0_2 t) (hs0_2 t)
    ((hcond0_0 t).mpr h0) (iblk0 V c 0 t)

theorem outs_B_1 (c : Dev nD) (t : Fin cfg0.N) (h0 : ¬t.val % 32 = 0) :
    (outsAt0 V c t.val t.isLt).1
      = k0_pay3 (iblk0 V c 0 t) (outsAt0 V c (t.val - 1) (Nat.lt_of_le_of_lt (Nat.sub_le _ _) t.isLt)).1 := by
  rw [outsAt0_B V c t h0]
  dsimp only
  exact out_B_1 (F := F) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

theorem outs_B_2 (c : Dev nD) (t : Fin cfg0.N) (h0 : ¬t.val % 32 = 0) :
    (outsAt0 V c t.val t.isLt).2
      = k0_pay4 (iblk0 V c 0 t) (outsAt0 V c (t.val - 1) (Nat.lt_of_le_of_lt (Nat.sub_le _ _) t.isLt)).2 := by
  rw [outsAt0_B V c t h0]
  dsimp only
  exact out_B_2 (F := F) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

end Recursion

/-! ## A point's input block inside the whole array

Point `t` reads rows `16384 t … 16384 t + 16383` of the 524288 × 128 array: entry `(r, i)` of its block is entry
`(16384 t + r, i)` of the array.  Column `i` of the array is also read as a function of a natural row number (zero
past the last row), so that partial sums over the first `n` blocks are sums over an initial range of rows. -/

section Blocks

/-- The input array as the region finds it. -/
abbrev xarr (c : Dev nD) : S524288x128.Idx → EReal := m ((c : Thread nD τ).loc main_arg0)
/-- The block of it that point `t` reads. -/
abbrev xblk (c : Dev nD) (t : Fin cfg0.N) : Vec Ideal S16384x128 .f32 := iblk0 (V0 m ρ) c 0 t

theorem row_lt {t r : ℕ} (ht : t < 32) (hr : r < 16384) : t * 16384 + r < 524288 := by omega

theorem xblk_apply (c : Dev nD) (t : Fin cfg0.N) (r : Fin 16384) (i : Fin 128) :
    xblk m ρ c t (ix2 r i)
      = xarr m c (ix2 ⟨t.val * 16384 + r.val, row_lt (lt_of_lt_of_eq t.isLt N_0) r.isLt⟩ i) := by
  have hi : win0_0.index t 0 = t.val ∧ win0_0.index t 1 = 0 :=
    (by decide +kernel : ∀ t : Fin grid0.N, win0_0.index t 0 = t.val ∧ win0_0.index t 1 = 0) t
  show ((cfg0.win 0).blk t).view.read (Elt Ideal) (V0 m ρ c (Pipeline.arrRef spec0 0)) (ix2 r i) = _
  rw [View.read_apply]
  show m ((c : Thread nD τ).loc main_arg0) _ = m ((c : Thread nD τ).loc main_arg0) _
  congr 1
  funext a
  apply Fin.ext
  match a with
  | ⟨0, _⟩ => show win0_0.index t 0 * 16384 + 1 * r.val = t.val * 16384 + r.val; rw [hi.1]; omega
  | ⟨1, _⟩ => show win0_0.index t 1 * 128 + 1 * i.val = i.val; rw [hi.2]; omega

/-- Column `i` at row number `k`; zero past the last row. -/
def colAt (x : S524288x128.Idx → EReal) (i : Fin 128) (k : ℕ) : EReal :=
  if h : k < 524288 then x (ix2 ⟨k, h⟩ i) else 0

theorem colAt_of_lt (x : S524288x128.Idx → EReal) (i : Fin 128) {k : ℕ} (h : k < 524288) :
    colAt x i k = x (ix2 ⟨k, h⟩ i) := dif_pos h

/-- The column sums of point `t`'s block are the sums over its 16384 row numbers. -/
theorem blk_sum (c : Dev nD) (t : Fin cfg0.N) (i : Fin 128) :
    ∑ r : Fin 16384, xblk m ρ c t (ix2 r i) = ∑ k ∈ Finset.range 16384, colAt (xarr m c) i (t.val * 16384 + k) :=
  (Finset.sum_congr rfl fun r _ =>
      (xblk_apply m ρ c t r i).trans (colAt_of_lt (xarr m c) i (row_lt (lt_of_lt_of_eq t.isLt N_0) r.isLt)).symm).trans
    (Finset.sum_range fun k => colAt (xarr m c) i (t.val * 16384 + k)).symm

/-- … and likewise for the squares. -/
theorem blk_sumsq (c : Dev nD) (t : Fin cfg0.N) (i : Fin 128) :
    ∑ r : Fin 16384, xblk m ρ c t (ix2 r i) * xblk m ρ c t (ix2 r i)
      = ∑ k ∈ Finset.range 16384, colAt (xarr m c) i (t.val * 16384 + k) * colAt (xarr m c) i (t.val * 16384 + k) :=
  (Finset.sum_congr rfl fun r _ => by
      rw [xblk_apply m ρ c t r i, ← colAt_of_lt (xarr m c) i (row_lt (lt_of_lt_of_eq t.isLt N_0) r.isLt)]).trans
    (Finset.sum_range fun k => colAt (xarr m c) i (t.val * 16384 + k) * colAt (xarr m c) i (t.val * 16384 + k)).symm

/-- The rows of the first `n + 1` blocks are those of the first `n` blocks and then block `n`'s. -/
theorem range_succ_blocks (f : ℕ → EReal) (n : ℕ) :
    ∑ k ∈ Finset.range ((n + 1) * 16384), f k
      = ∑ k ∈ Finset.range (n * 16384), f k + ∑ k ∈ Finset.range 16384, f (n * 16384 + k) := by
  rw [Nat.succ_mul, Finset.sum_range_add]

end Blocks

/-! ## The closed form, by induction on the point

After point `n` the first row holds, at lane `i`, the sum of column `i` over the rows of blocks `0 … n`, and the
second row the sum of their squares.  Only `0 + a = a` and the splitting of a sum over an initial range are used. -/

section Closed

theorem acc1_eq (c : Dev nD) (z : Fin 1) (i : Fin 128) : ∀ (n : ℕ) (h : n < cfg0.N),
    ((outsAt0 (V0 m ρ) c n h).1 : FVec Ideal S1x128 .f32) (ix2 z i)
      = ∑ k ∈ Finset.range ((n + 1) * 16384), colAt (xarr m c) i k
  | 0, h => by
    refine (congrFun (outs_A_1 (V0 m ρ) c ⟨0, h⟩ rfl) (ix2 z i)).trans ?_
    refine (pay3_apply (xblk m ρ c ⟨0, h⟩) (k0_pay1 (F := Ideal)) z i).trans ?_
    rw [pay1_apply, blk_sum, range_succ_blocks]
    simp only [Nat.zero_mul, Finset.range_zero, Finset.sum_empty]
  | n + 1, h => by
    have hN : cfg0.N = 32 := N_0
    have hB : ¬(⟨n + 1, h⟩ : Fin cfg0.N).val % 32 = 0 := by dsimp only; omega
    refine (congrFun (outs_B_1 (V0 m ρ) c ⟨n + 1, h⟩ hB) (ix2 z i)).trans ?_
    refine (pay3_apply (xblk m ρ c ⟨n + 1, h⟩) _ z i).trans ?_
    rw [blk_sum, range_succ_blocks]
    exact congrArg₂ (· + ·) (acc1_eq c z i n (Nat.lt_of_succ_lt h)) rfl

theorem acc2_eq (c : Dev nD) (z : Fin 1) (i : Fin 128) : ∀ (n : ℕ) (h : n < cfg0.N),
    ((outsAt0 (V0 m ρ) c n h).2 : FVec Ideal S1x128 .f32) (ix2 z i)
      = ∑ k ∈ Finset.range ((n + 1) * 16384), colAt (xarr m c) i k * colAt (xarr m c) i k
  | 0, h => by
    refine (congrFun (outs_A_2 (V0 m ρ) c ⟨0, h⟩ rfl) (ix2 z i)).trans ?_
    refine (pay4_apply (xblk m ρ c ⟨0, h⟩) (k0_pay2 (F := Ideal)) z i).trans ?_
    rw [pay2_apply, blk_sumsq, range_succ_blocks]
    simp only [Nat.zero_mul, Finset.range_zero, Finset.sum_empty]
  | n + 1, h => by
    have hN : cfg0.N = 32 := N_0
    have hB : ¬(⟨n + 1, h⟩ : Fin cfg0.N).val % 32 = 0 := by dsimp only; omega
    refine (congrFun (outs_B_2 (V0 m ρ) c ⟨n + 1, h⟩ hB) (ix2 z i)).trans ?_
    refine (pay4_apply (xblk m ρ c ⟨n + 1, h⟩) _ z i).trans ?_
    rw [blk_sumsq, range_succ_blocks]
    exact congrArg₂ (· + ·) (acc2_eq c z i n (Nat.lt_of_succ_lt h)) rfl

/-- The 32 blocks of 16384 rows are all 524288 rows. -/
theorem colSum_eq (x : S524288x128.Idx → EReal) (i : Fin 128) :
    ∑ k ∈ Finset.range ((31 + 1) * 16384), colAt x i k = Cert.BNSpec.colSum x i := by
  show ∑ k ∈ Finset.range 524288, colAt x i k = ∑ b : Fin 524288, x (ix2 b i)
  rw [Finset.sum_range]
  exact Finset.sum_congr rfl fun b _ => colAt_of_lt x i b.isLt

theorem colSumSq_eq (x : S524288x128.Idx → EReal) (i : Fin 128) :
    ∑ k ∈ Finset.range ((31 + 1) * 16384), colAt x i k * colAt x i k = Cert.BNSpec.colSumSq x i := by
  show ∑ k ∈ Finset.range 524288, colAt x i k * colAt x i k = ∑ b : Fin 524288, x (ix2 b i) * x (ix2 b i)
  rw [Finset.sum_range]
  exact Finset.sum_congr rfl fun b _ => by rw [colAt_of_lt x i b.isLt]

end Closed

/-! ## What the two result arrays end holding

Each accumulator row is written back once, at the last point (31), and its one block is the whole 1 × 128 array; so
the array ends holding the row as the last point leaves it. -/

section Final

theorem last_lt : 31 < cfg0.N := by rw [show cfg0.N = 32 from N_0]; decide

/-- The last grid point. -/
abbrev tLast : Fin cfg0.N := ⟨31, last_lt⟩

/-- The rows after the last point, as contents of the two result arrays. -/
abbrev res1 (c : Dev nD) : Buf (Elt Ideal) ((c : Thread nD τ).loc main_v0_0) := (outsAt0 (V0 m ρ) c 31 last_lt).1
abbrev res2 (c : Dev nD) : Buf (Elt Ideal) ((c : Thread nD τ).loc main_v0_1) := (outsAt0 (V0 m ρ) c 31 last_lt).2

/-- Every point's block of a result array starts at its origin … -/
theorem idx1_zero (t : Fin cfg0.N) : ∀ a, win0_1.index t a = 0 :=
  (by decide +kernel : ∀ t : Fin grid0.N, ∀ a, win0_1.index t a = 0) t
theorem idx2_zero (t : Fin cfg0.N) : ∀ a, win0_2.index t a = 0 :=
  (by decide +kernel : ∀ t : Fin grid0.N, ∀ a, win0_2.index t a = 0) t
/-- … and is the whole 1 × 128 array. -/
theorem xsize1 (t : Fin cfg0.N) : win0_1.xsize (grid0.coords t) 0 = 1 ∧ win0_1.xsize (grid0.coords t) 1 = 128 :=
  (by decide +kernel : ∀ t : Fin grid0.N, win0_1.xsize (grid0.coords t) 0 = 1 ∧ win0_1.xsize (grid0.coords t) 1 = 128) t
theorem xsize2 (t : Fin cfg0.N) : win0_2.xsize (grid0.coords t) 0 = 1 ∧ win0_2.xsize (grid0.coords t) 1 = 128 :=
  (by decide +kernel : ∀ t : Fin grid0.N, win0_2.xsize (grid0.coords t) 0 = 1 ∧ win0_2.xsize (grid0.coords t) 1 = 128) t

/-- The one write-back of the first row writes the row after the last point. -/
theorem flushed1_eq (c : Dev nD) (t : Fin cfg0.N) (hf : (cfg0.win 1).flush t = true) :
    (dat0 (V0 m ρ) c).flushed 1 t = ((cfg0.win 1).blk t).view.read (Elt Ideal) (res1 m ρ c) := by
  have hN : cfg0.N = 32 := N_0
  have h31 : t.val = 31 := by have := (flush0_1 t).mp hf; have := t.isLt; omega
  obtain rfl : t = tLast := Fin.ext h31
  show (cfg0.win 1).cut (grid0.coords tLast) ((dat0 (V0 m ρ) c).after 1 tLast) = _
  rw [after0_1]
  have hz' : (fun a => win0_1.index tLast a * main_v0_0.ty.shape.size a) = fun _ => 0 :=
    funext fun a => by rw [idx1_zero tLast a, Nat.zero_mul]
  exact (Memref.read_access_unit_zero (Elt Ideal) main_v0_0 hz' (fun a => by rw [congrFun hz' a]; simp) (res1 m ρ c)).symm

theorem flushed2_eq (c : Dev nD) (t : Fin cfg0.N) (hf : (cfg0.win 2).flush t = true) :
    (dat0 (V0 m ρ) c).flushed 2 t = ((cfg0.win 2).blk t).view.read (Elt Ideal) (res2 m ρ c) := by
  have hN : cfg0.N = 32 := N_0
  have h31 : t.val = 31 := by have := (flush0_2 t).mp hf; have := t.isLt; omega
  obtain rfl : t = tLast := Fin.ext h31
  show (cfg0.win 2).cut (grid0.coords tLast) ((dat0 (V0 m ρ) c).after 2 tLast) = _
  rw [after0_2]
  have hz' : (fun a => win0_2.index tLast a * main_v0_1.ty.shape.size a) = fun _ => 0 :=
    funext fun a => by rw [idx2_zero tLast a, Nat.zero_mul]
  exact (Memref.read_access_unit_zero (Elt Ideal) main_v0_1 hz' (fun a => by rw [congrFun hz' a]; simp) (res2 m ρ c)).symm

/-- So the first result array ends holding that row: the last point's block covers it. -/
theorem final1 (c : Dev nD) : (dat0 (V0 m ρ) c).arrAt 1 cfg0.N = res1 m ρ c :=
  (dat0 (V0 m ρ) c).arrAt_eq_of_cover 1 (res1 m ρ c) (flushed1_eq m ρ c) fun j =>
    ⟨tLast, (flush0_1 tLast).mpr rfl, by
      show j ∈ ((View.whole main_v0_0).slice (win0_1.rect tLast)).set
      rw [View.set_slice_whole, Rect.mem_set_unit]
      intro a
      have h0 : (j 0 : Nat) < 1 := (j 0).isLt
      have h1 : (j 1 : Nat) < 128 := (j 1).isLt
      match a with
      | ⟨0, _⟩ =>
        show win0_1.index tLast 0 * win0_1.size 0 ≤ (j 0 : Nat)
          ∧ (j 0 : Nat) < win0_1.index tLast 0 * win0_1.size 0 + win0_1.xsize (grid0.coords tLast) 0
        rw [idx1_zero tLast 0, (xsize1 tLast).1]; omega
      | ⟨1, _⟩ =>
        show win0_1.index tLast 1 * win0_1.size 1 ≤ (j 1 : Nat)
          ∧ (j 1 : Nat) < win0_1.index tLast 1 * win0_1.size 1 + win0_1.xsize (grid0.coords tLast) 1
        rw [idx1_zero tLast 1, (xsize1 tLast).2]; omega⟩

theorem final2 (c : Dev nD) : (dat0 (V0 m ρ) c).arrAt 2 cfg0.N = res2 m ρ c :=
  (dat0 (V0 m ρ) c).arrAt_eq_of_cover 2 (res2 m ρ c) (flushed2_eq m ρ c) fun j =>
    ⟨tLast, (flush0_2 tLast).mpr rfl, by
      show j ∈ ((View.whole main_v0_1).slice (win0_2.rect tLast)).set
      rw [View.set_slice_whole, Rect.mem_set_unit]
      intro a
      have h0 : (j 0 : Nat) < 1 := (j 0).isLt
      have h1 : (j 1 : Nat) < 128 := (j 1).isLt
      match a with
      | ⟨0, _⟩ =>
        show win0_2.index tLast 0 * win0_2.size 0 ≤ (j 0 : Nat)
          ∧ (j 0 : Nat) < win0_2.index tLast 0 * win0_2.size 0 + win0_2.xsize (grid0.coords tLast) 0
        rw [idx2_zero tLast 0, (xsize2 tLast).1]; omega
      | ⟨1, _⟩ =>
        show win0_2.index tLast 1 * win0_2.size 1 ≤ (j 1 : Nat)
          ∧ (j 1 : Nat) < win0_2.index tLast 1 * win0_2.size 1 + win0_2.xsize (grid0.coords tLast) 1
        rw [idx2_zero tLast 1, (xsize2 tLast).2]; omega⟩

end Final

/-- After the first region its first result array holds, per feature, the sum of `x` over the whole batch. -/
theorem W1_sum (c : Dev nD) :
    (W1 m ρ c (Proc.devRef .tc main_v0_0) : S1x128.Idx → EReal)
      = fun j => Cert.BNSpec.colSum (m ((c : Thread nD τ).loc main_arg0)) ⟨(j 1).val, (j 1).isLt⟩ := by
  have e : W1 m ρ c (Proc.devRef .tc main_v0_0) = res1 m ρ c := (W1_arr m ρ c 1).trans (final1 m ρ c)
  funext j
  refine (congrFun e j).trans ?_
  refine (congrArg (res1 m ρ c) (eq_ix2 j)).trans ?_
  refine (acc1_eq m ρ c (j 0) (j 1) 31 last_lt).trans ?_
  exact colSum_eq (xarr m c) (j 1)

/-- … and its second result array the sum of squares. -/
theorem W1_sumsq (c : Dev nD) :
    (W1 m ρ c (Proc.devRef .tc main_v0_1) : S1x128.Idx → EReal)
      = fun j => Cert.BNSpec.colSumSq (m ((c : Thread nD τ).loc main_arg0)) ⟨(j 1).val, (j 1).isLt⟩ := by
  have e : W1 m ρ c (Proc.devRef .tc main_v0_1) = res2 m ρ c := (W1_arr m ρ c 2).trans (final2 m ρ c)
  funext j
  refine (congrFun e j).trans ?_
  refine (congrArg (res2 m ρ c) (eq_ix2 j)).trans ?_
  refine (acc2_eq m ρ c (j 0) (j 1) 31 last_lt).trans ?_
  exact colSumSq_eq (xarr m c) (j 1)

end Cert.KernelIdeal.Stats

end
-- ==== Proof.HostK.lean ====
import proofs.«177256_j65661460021995_1_alg».proof.Proof.Stats
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.HostK

open Cert.KernelIdeal Cert.KernelIdeal.Gen Cert.BNSpec

variable (m : (ℓ : Loc nD τ sig) → Buf (Elt Ideal) ℓ) (ρ : Dev nD → PrngReg)

/-! ## The three layout operations of the stretch, read at an index

Between the two regions every operation acts entry by entry except three: a row of 128 put under a leading unit
axis, that row spread over the 128 rows of a matrix, and the transpose of a 128 × 128 matrix. Each reads ONE entry of
its operand; the three lemmas name it. Everything else (quotient, product, difference, sum, reciprocal square root,
comparison, selection, a splat constant, the change of format) is, over the extended reals, the entrywise operation
by definition. -/

/-- A row of 128 put under a leading unit axis: entry (0, b) is the row's entry b. -/
theorem bcastRow_apply (v : (⟨S128, .f32⟩ : BufTy).Contents (Elt Ideal)) (j : S1x128.Idx) :
    (broadcastInDim S1x128 ![1] bcast_S128_S1x128_1 v : S1x128.Idx → EReal) j = (v : S128.Idx → EReal) (ix1 ⟨(j 1).val, (j 1).isLt⟩) :=
  broadcastInDim_apply _ bcast_S128_S1x128_1 v j (ix1 ⟨(j 1).val, (j 1).isLt⟩) (fun a => match a with
    | ⟨0, _⟩ => by show (j 1).val = if (128 : Nat) = 1 then 0 else (j 1).val; rw [if_neg (by decide)])

/-- The same as an equation of functions. -/
theorem bcastRow_eq (v : (⟨S128, .f32⟩ : BufTy).Contents (Elt Ideal)) :
    (broadcastInDim S1x128 ![1] bcast_S128_S1x128_1 v : S1x128.Idx → EReal) = fun j => (v : S128.Idx → EReal) (ix1 ⟨(j 1).val, (j 1).isLt⟩) :=
  funext (bcastRow_apply v)

/-- A row of 128 put under a unit axis and then spread over the 128 rows of a matrix: entry (a, b) is the row's entry b. -/
theorem bcastMat_eq (v : (⟨S128, .f32⟩ : BufTy).Contents (Elt Ideal)) :
    (broadcastInDim S128x128 ![0, 1] bcast_S1x128_S128x128_0_1 (broadcastInDim S1x128 ![1] bcast_S128_S1x128_1 v) : S128x128.Idx → EReal)
      = fun k => (v : S128.Idx → EReal) (ix1 (k 1)) := by
  funext k
  refine (broadcastInDim_apply _ bcast_S1x128_S128x128_0_1 _ k (ix2 ⟨0, Nat.one_pos⟩ ⟨(k 1).val, (k 1).isLt⟩) (fun a => match a with
    | ⟨0, _⟩ => by show 0 = if (1 : Nat) = 1 then 0 else (k 0).val; rw [if_pos rfl]
    | ⟨1, _⟩ => by show (k 1).val = if (128 : Nat) = 1 then 0 else (k 1).val; rw [if_neg (by decide)])).trans ?_
  exact bcastRow_apply v _

/-- The 128 × 128 transpose: entry (a, b) of the result is entry (b, a) of the operand. -/
theorem transposeMat_apply {α : Type} (x : S128x128.Idx → α) (j : S128x128.Idx) :
    transpose S128x128 [1, 0] x transposes_S128x128_S128x128_1_0 j = x (ix2 ⟨(j 1).val, (j 1).isLt⟩ ⟨(j 0).val, (j 0).isLt⟩) :=
  transpose_apply _ x transposes_S128x128_S128x128_1_0 j (ix2 ⟨(j 1).val, (j 1).isLt⟩ ⟨(j 0).val, (j 0).isLt⟩) (fun b => match b with
    | ⟨0, _⟩ => rfl
    | ⟨1, _⟩ => rfl)

/-- The same as an equation of functions. -/
theorem transposeMat_eq {α : Type} (x : S128x128.Idx → α) :
    transpose S128x128 [1, 0] x transposes_S128x128_S128x128_1_0 = fun j => x (ix2 ⟨(j 1).val, (j 1).isLt⟩ ⟨(j 0).val, (j 0).isLt⟩) :=
  funext (transposeMat_apply x)

/-! ## The five buffers the second region reads

Each proof reads the buffer back through the stretch's operations to the first region's two result rows and the
launch arrays: an operation's result buffer holds its function of its operands' buffers, any other buffer what it held
before. The first region's rows are the column sums and sums of squares; an array no operation writes and the first
region does not own is as launched. What remains is an entrywise identity between the composed operations and the
specification's formula, true by unfolding both. -/

/-- The second region finds x as launched: neither it, nor any host operation, nor the first region (which only
    reads it) writes that array. -/
theorem W6_x (c : Dev nD) : W6 m ρ c (Proc.devRef .tc main_arg0) = m ((c : Thread nD τ).loc main_arg0) :=
  ((W7_arr m ρ c 0).trans (((dat1 (V6 m ρ) c).arrAt_in 0 rfl _).trans (A_eq1 (V6 m ρ) c 0))).symm.trans (W7_main_arg0 m ρ c)

set_option maxHeartbeats 1000000 in
/-- The scale row the host stretch computes: γ · (E[x²] − μ² + ε)^(−1/2), with μ = S / n and E[x²] = Q / n read off the
    first region's column sums S and sums of squares Q. -/
theorem W6_scale (c : Dev nD) :
    (W6 m ρ c (Proc.devRef .tc main_v11) : S1x128.Idx → EReal)
      = fun j => scale1 (m ((c : Thread nD τ).loc main_arg0)) (m ((c : Thread nD τ).loc main_arg3)) ⟨(j 1).val, (j 1).isLt⟩ := by
  show StableHlo.after hostOps1_4 (W5 m ρ c) (Proc.devRef .tc main_v11) = _
  after_results
  rw [Stats.W1_sum m ρ c, Stats.W1_sumsq m ρ c, W1_of_ne m ρ c main_arg3 (by decide), bcastRow_eq]
  funext j
  rfl

set_option maxHeartbeats 1000000 in
/-- The shift row: β − μ · scale. -/
theorem W6_shift (c : Dev nD) :
    (W6 m ρ c (Proc.devRef .tc main_v14) : S1x128.Idx → EReal)
      = fun j => shift1 (m ((c : Thread nD τ).loc main_arg0)) (m ((c : Thread nD τ).loc main_arg3)) (m ((c : Thread nD τ).loc main_arg4)) ⟨(j 1).val, (j 1).isLt⟩ := by
  show StableHlo.after hostOps1_4 (W5 m ρ c) (Proc.devRef .tc main_v14) = _
  after_results
  rw [Stats.W1_sum m ρ c, Stats.W1_sumsq m ρ c, W1_of_ne m ρ c main_arg3 (by decide), W1_of_ne m ρ c main_arg4 (by decide), bcastRow_eq, bcastRow_eq]
  funext j
  rfl

set_option maxHeartbeats 2000000 in
/-- The ternarised weight, transposed: entry (feature, output). With d = w − α (α spread along the rows), the entry is
    1 where d > 0, else −1 where d < 1, else 0; the transpose swaps the two coordinates and the change of format is the
    identity on the extended reals. -/
theorem W6_wT (c : Dev nD) :
    (W6 m ρ c (Proc.devRef .tc main_v26) : S128x128.Idx → EReal)
      = fun j => tern (m ((c : Thread nD τ).loc main_arg1)) (m ((c : Thread nD τ).loc main_arg5)) (ix2 ⟨(j 1).val, (j 1).isLt⟩ ⟨(j 0).val, (j 0).isLt⟩) := by
  show StableHlo.after hostOps1_4 (W5 m ρ c) (Proc.devRef .tc main_v26) = _
  after_results
  rw [W1_of_ne m ρ c main_arg1 (by decide), W1_of_ne m ρ c main_arg5 (by decide), bcastMat_eq, transposeMat_eq]
  funext j
  rfl

set_option maxHeartbeats 400000 in
/-- The bias as a row. -/
theorem W6_bias (c : Dev nD) :
    (W6 m ρ c (Proc.devRef .tc main_v27) : S1x128.Idx → EReal)
      = fun j => (m ((c : Thread nD τ).loc main_arg2) : S128.Idx → EReal) (ix1 ⟨(j 1).val, (j 1).isLt⟩) := by
  show StableHlo.after hostOps1_4 (W5 m ρ c) (Proc.devRef .tc main_v27) = _
  after_results
  rw [W1_of_ne m ρ c main_arg2 (by decide)]
  funext j
  exact bcastRow_apply _ j

end Cert.KernelIdeal.HostK

end
-- ==== Proof.MainK.lean ====
import proofs.«177256_j65661460021995_1_alg».proof.Proof.Gen.KernelIdeal.Frame
import proofs.«177256_j65661460021995_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MainK

open Cert.KernelIdeal Cert.KernelIdeal.Gen

variable (V : (c : Dev nD) → (b : Ref sig .tc) → Buf (Elt Ideal) ((c : Thread nD τ).loc b))

/-- The second region's result array, from the arrays it finds: row `b` of `x` scaled and shifted per feature,
    multiplied into the (feature, output) matrix, plus the bias row. -/
def G (x : S524288x128.Idx → EReal) (sc sh : S1x128.Idx → EReal) (wT : S128x128.Idx → EReal) (br : S1x128.Idx → EReal) :
    S524288x128.Idx → EReal := fun j =>
  (∑ k : Fin 128, (x (ix2 ⟨(j 0).val, (j 0).isLt⟩ k) * sc (ix2 0 k) + sh (ix2 0 k)) * wT (ix2 k ⟨(j 1).val, (j 1).isLt⟩))
    + br (ix2 0 ⟨(j 1).val, (j 1).isLt⟩)

/-! ## The block product at an index

The product contracts axis 1 of its left operand with axis 0 of its right operand; the contraction shape has one
axis of extent 128, so a contraction index is one number `k`, the left operand is read at `(row, k)` and the right
at `(k, column)`. -/

theorem lhs_mm_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_mm_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_mm_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_mm_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The block product into the zero splat, at row `p` and column `q`: the sum over the 128 features. -/
theorem mm_apply (l : FVec Ideal S8192x128 .bf16) (r : FVec Ideal S128x128 .bf16) (p : Fin 8192) (q : Fin 128) :
    matmul dot_S8192x128_S128x128_S8192x128_1_0_0_1_n_n none l r (constant (F := Ideal) S8192x128 .f32 0x00000000#32) (ix2 p q)
      = ∑ k : Fin 128, l (ix2 p k) * r (ix2 k q) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p q) ((ValueIdx.contrEquiv1 dot_S8192x128_S128x128_S8192x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8192x128_S128x128_S8192x128_1_0_0_1_n_n.rhsIdx (ix2 p q) ((ValueIdx.contrEquiv1 dot_S8192x128_S128x128_S8192x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's result at an index -/

/-- What the body stores at row `p`, column `q` of its block, from the blocks it loaded. -/
theorem pay_apply (x0 : Vec Ideal S8192x128 .f32) (x1 x2 : Vec Ideal S1x128 .f32) (x3 : Vec Ideal S128x128 .bf16)
    (x4 : Vec Ideal S1x128 .f32) (p : Fin 8192) (q : Fin 128) :
    (k1_pay1 (F := Ideal) x0 x1 x2 x3 x4 : S8192x128.Idx → EReal) (ix2 p q)
      = (∑ k : Fin 128, (x0 (ix2 p k) * x1 (ix2 0 k) + x2 (ix2 0 k)) * x3 (ix2 k q)) + x4 (ix2 0 q) := by
  unfold k1_pay1
  simp only [shapeCast_self]
  rw [addf_apply, mm_apply, broadcastTo_1b_ab_apply]
  refine congrArg (· + x4 (ix2 0 q)) (Finset.sum_congr rfl fun k _ => ?_)
  rw [truncf_apply, addf_apply, mulf_apply, broadcastTo_1b_ab_apply, broadcastTo_1b_ab_apply]

/-- The offset `(0, 0)` is zero on both axes. -/
theorem off_zero : (![0, 0] : Fin 2 → Nat) = fun _ => 0 := funext fun a => by fin_cases a <;> rfl

/-- One store through the whole staging buffer leaves the payload of the loaded blocks, each loaded whole. -/
theorem out_eq (x0 : Vec Ideal S8192x128 .f32) (x1 x2 : Vec Ideal S1x128 .f32) (x3 : Vec Ideal S128x128 .bf16)
    (x4 : Vec Ideal S1x128 .f32) : out1_5 (F := Ideal) x0 x1 x2 x3 x4 = k1_pay1 x0 x1 x2 x3 x4 := by
  unfold out1_5
  rw [View.canon_unit_zero off_zero]
  simp only [View.ld_unit_zero (S := S8192x128) off_zero, View.ld_unit_zero (S := S1x128) off_zero,
    View.ld_unit_zero (S := S128x128) off_zero]

/-! ## The windows' blocks as parts of the arrays

Point `t` of the 64 reads rows `8192 t … 8192 t + 8191` of `x` and writes the same rows of the result; the
scale row, the shift row, the matrix and the bias row are each one block, the whole array, at every point. -/

/-- The windows' index maps over the grid: windows 0 and 5 at block `(t, 0)`, windows 1 to 4 at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 64 := by
  have h : cfg1.N = 64 := N_1
  have := t.isLt
  omega

/-- Row `p` of point `t`'s block of `x` is row `8192 t + p` of `x`. -/
theorem blk0_apply (c : Dev nD) (t : Fin cfg1.N) (p : Fin 8192) (k : Fin 128) (r : Fin 524288)
    (hr : r.val = 8192 * t.val + p.val) :
    (iblk1 V c 0 t : Vec Ideal S8192x128 .f32) (ix2 p k) = (V c main_arg0 : S524288x128.Idx → EReal) (ix2 r k) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 8192 + 1 * p.val = r.val; omega
  | ⟨1, _⟩ => show win1_0.index t (1 : Fin 2) * 128 + 1 * k.val = k.val; omega

/-- The scale row's block is the scale row. -/
theorem blk1_apply (c : Dev nD) (t : Fin cfg1.N) (k : Fin 128) :
    (iblk1 V c 1 t : Vec Ideal S1x128 .f32) (ix2 0 k) = (V c main_v11 : S1x128.Idx → EReal) (ix2 0 k) := by
  obtain ⟨-, -, e0, e1, -⟩ := idx_facts t
  unfold iblk1
  rw [View.read_apply]
  show V c main_v11 _ = V c main_v11 _
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- The shift row's block is the shift row. -/
theorem blk2_apply (c : Dev nD) (t : Fin cfg1.N) (k : Fin 128) :
    (iblk1 V c 2 t : Vec Ideal S1x128 .f32) (ix2 0 k) = (V c main_v14 : S1x128.Idx → EReal) (ix2 0 k) := by
  obtain ⟨-, -, -, -, e0, e1, -⟩ := idx_facts t
  unfold iblk1
  rw [View.read_apply]
  show V c main_v14 _ = V c main_v14 _
  congr 1
  funext a
  apply Fin.ext
  match a with
  | ⟨0, _⟩ => show win1_2.index t (0 : Fin 2) * 1 + 1 * 0 = 0; omega
  | ⟨1, _⟩ => show win1_2.index t (1 : Fin 2) * 128 + 1 * k.val = k.val; omega

/-- The matrix's block is the matrix. -/
theorem blk3_apply (c : Dev nD) (t : Fin cfg1.N) (k q : Fin 128) :
    (iblk1 V c 3 t : Vec Ideal S128x128 .bf16) (ix2 k q) = (V c main_v26 : S128x128.Idx → EReal) (ix2 k q) := by
  obtain ⟨-, -, -, -, -, -, e0, e1, -⟩ := idx_facts t
  unfold iblk1
  rw [View.read_apply]
  show V c main_v26 _ = V c main_v26 _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row's block is the bias row. -/
theorem blk4_apply (c : Dev nD) (t : Fin cfg1.N) (q : Fin 128) :
    (iblk1 V c 4 t : Vec Ideal S1x128 .f32) (ix2 0 q) = (V c main_v27 : S1x128.Idx → EReal) (ix2 0 q) := by
  obtain ⟨-, -, -, -, -, -, -, -, e0, e1, -⟩ := idx_facts t
  unfold iblk1
  rw [View.read_apply]
  show V c main_v27 _ = V c main_v27 _
  congr 1
  funext a
  apply Fin.ext
  match a with
  | ⟨0, _⟩ => show win1_4.index t (0 : Fin 2) * 1 + 1 * 0 = 0; omega
  | ⟨1, _⟩ => show win1_4.index t (1 : Fin 2) * 128 + 1 * q.val = q.val; omega

/-- Row `p`, column `q` of point `t`'s block of the result is row `8192 t + p`, column `q` of the result. -/
theorem emb5_apply (t : Fin cfg1.N) (p : Fin 8192) (q : Fin 128) (r : Fin 524288) (hr : r.val = 8192 * t.val + p.val) :
    (((cfg1.win 5).blk t).view.emb (ix2 p q) : S524288x128.Idx) = ix2 r q := by
  obtain ⟨-, -, -, -, -, -, -, -, -, -, e0, e1⟩ := idx_facts t
  funext a
  apply Fin.ext
  match a with
  | ⟨0, _⟩ => show win1_5.index t (0 : Fin 2) * 8192 + 1 * p.val = r.val; omega
  | ⟨1, _⟩ => show win1_5.index t (1 : Fin 2) * 128 + 1 * q.val = q.val; omega

/-- `G` at row `r`, column `q`. -/
theorem G_apply (x : S524288x128.Idx → EReal) (sc sh : S1x128.Idx → EReal) (wT : S128x128.Idx → EReal)
    (br : S1x128.Idx → EReal) (r : Fin 524288) (q : Fin 128) :
    G x sc sh wT br (ix2 r q)
      = (∑ k : Fin 128, (x (ix2 r k) * sc (ix2 0 k) + sh (ix2 0 k)) * wT (ix2 k q)) + br (ix2 0 q) := rfl

/-! ## What each point writes back, and the array after the last point -/

/-- What point `t` writes back is block `t` of `G` of the arrays the region finds. -/
theorem flushed_eq (c : Dev nD) (t : Fin cfg1.N) :
    (dat1 V c).flushed 5 t = ((cfg1.win 5).blk t).view.read (Elt Ideal)
      (G (V c main_arg0) (V c main_v11) (V c main_v14) (V c main_v26) (V c main_v27)) := by
  show (cfg1.win 5).cut (grid1.coords t) ((dat1 V c).after 5 t) = _
  rw [after1_5, out_eq]
  funext j
  obtain ⟨p, q, rfl⟩ : ∃ (p : Fin 8192) (q : Fin 128), j = ix2 p q := ⟨j 0, j 1, eq_ix2 j⟩
  have ht := t_lt t
  have hr : 8192 * t.val + p.val < 524288 := by have := p.isLt; omega
  show k1_pay1 (iblk1 V c 0 t) (iblk1 V c 1 t) (iblk1 V c 2 t) (iblk1 V c 3 t) (iblk1 V c 4 t) (ix2 p q)
    = G (V c main_arg0) (V c main_v11) (V c main_v14) (V c main_v26) (V c main_v27) (((cfg1.win 5).blk t).view.emb (ix2 p q))
  refine (pay_apply _ _ _ _ _ p q).trans ?_
  rw [emb5_apply t p q ⟨8192 * t.val + p.val, hr⟩ rfl, G_apply, blk4_apply]
  refine congrArg (· + (V c main_v27 : S1x128.Idx → EReal) (ix2 0 q)) (Finset.sum_congr rfl fun k _ => ?_)
  rw [blk0_apply V c t p k ⟨8192 * t.val + p.val, hr⟩ rfl, blk1_apply, blk2_apply, blk3_apply]

/-- An index of the result is in point `t`'s block iff each coordinate is in the block's range on its axis. -/
theorem mem_blk (t : Fin cfg1.N) (i : S524288x128.Idx) :
    i ∈ ((cfg1.win 5).blk t).view.set ↔ ∀ a : Fin 2, win1_5.index t a * S8192x128.size a ≤ (i a).val
      ∧ (i a).val < win1_5.index t a * S8192x128.size a + S8192x128.size a := by
  show i ∈ ((View.whole main_v28).slice (win1_5.rect t)).set ↔ _
  rw [View.set_slice_whole, Rect.mem_set_unit]
  exact Iff.rfl

/-- Every index of the result is in the block of the point its row falls to: row `r` is written at point `r / 8192`. -/
theorem cover (i : S524288x128.Idx) :
    ∃ t : Fin cfg1.N, (cfg1.win 5).flush t = true ∧ i ∈ ((cfg1.win 5).blk t).view.set := by
  have hN : grid1.N = 64 := N_1
  have hi0 : (i 0).val < 524288 := (i 0).isLt
  have hi1 : (i 1).val < 128 := (i 1).isLt
  have hlt : (i 0).val / 8192 < grid1.N := by omega
  obtain ⟨-, -, -, -, -, -, -, -, -, -, e0, e1⟩ := idx_facts ⟨(i 0).val / 8192, hlt⟩
  have e0' : win1_5.index ⟨(i 0).val / 8192, hlt⟩ (0 : Fin 2) = (i 0).val / 8192 := e0
  refine ⟨⟨(i 0).val / 8192, hlt⟩, flush1_5 _, ?_⟩
  rw [mem_blk]
  intro a
  match a with
  | ⟨0, _⟩ =>
    show win1_5.index _ (0 : Fin 2) * 8192 ≤ (i 0).val ∧ (i 0).val < win1_5.index _ (0 : Fin 2) * 8192 + 8192
    omega
  | ⟨1, _⟩ =>
    show win1_5.index _ (1 : Fin 2) * 128 ≤ (i 1).val ∧ (i 1).val < win1_5.index _ (1 : Fin 2) * 128 + 128
    omega

/-- What the second region leaves in its result array. -/
theorem final1 (c : Dev nD) :
    ((dat1 V c).arrAt 5 cfg1.N : S524288x128.Idx → EReal)
      = G (V c main_arg0) (V c main_v11) (V c main_v14) (V c main_v26) (V c main_v27) :=
  (dat1 V c).arrAt_eq_of_cover 5 (G (V c main_arg0) (V c main_v11) (V c main_v14) (V c main_v26) (V c main_v27))
    (fun t _ => flushed_eq V c t) cover

end Cert.KernelIdeal.MainK

end
-- ==== Proof.KValue.lean ====
import proofs.«177256_j65661460021995_1_alg».proof.Proof.KRun
import proofs.«177256_j65661460021995_1_alg».proof.Proof.HostK
import proofs.«177256_j65661460021995_1_alg».proof.Proof.MainK

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.BNSpec

variable (m : (ℓ : Loc nD τ sig) → Buf (Elt Ideal) ℓ) (ρ : Dev nD → PrngReg)

/-- The kernel's result as one function of its arguments' launch contents. -/
abbrev result (c : Dev nD) : S524288x128.Idx → EReal :=
  out1 (m ((c : Thread nD τ).loc main_arg0))
    (tern (m ((c : Thread nD τ).loc main_arg1)) (m ((c : Thread nD τ).loc main_arg5)))
    (m ((c : Thread nD τ).loc main_arg2)) (m ((c : Thread nD τ).loc main_arg3)) (m ((c : Thread nD τ).loc main_arg4))

theorem W7_result (c : Dev nD) : (W7 m ρ c (Proc.devRef .tc main_v28) : S524288x128.Idx → EReal) = result m c := by
  refine ((W7_arr m ρ c 5).trans (Cert.KernelIdeal.MainK.final1 (V6 m ρ) c)).trans ?_
  show Cert.KernelIdeal.MainK.G (W6 m ρ c (Proc.devRef .tc main_arg0)) (W6 m ρ c (Proc.devRef .tc main_v11))
    (W6 m ρ c (Proc.devRef .tc main_v14)) (W6 m ρ c (Proc.devRef .tc main_v26)) (W6 m ρ c (Proc.devRef .tc main_v27)) = _
  rw [Cert.KernelIdeal.HostK.W6_x, Cert.KernelIdeal.HostK.W6_scale, Cert.KernelIdeal.HostK.W6_shift,
    Cert.KernelIdeal.HostK.W6_wT, Cert.KernelIdeal.HostK.W6_bias]
  funext j
  rfl

/-- The run with the result named. -/
theorem run : θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W7_result m ρ c), (h c).2⟩) (run_named m ρ)

end Cert.KernelIdeal.Value

end
-- ==== Proof.RefValue.lean ====
import proofs.«177256_j65661460021995_1_alg».proof.Proof.Gen.ReferenceIdeal.Run
import proofs.«177256_j65661460021995_1_alg».proof.Proof.Gen.ReferenceIdeal.Read
import proofs.«177256_j65661460021995_1_alg».proof.Proof.Spec
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.Read Cert.BNSpec

/-! ### Index bookkeeping

Every per-feature vector is first stretched to a 1 × 128 row and then to the full array, so an entry (b, i) of a
stretched vector is entry i of the vector; a column sum reads entry (k, i) for its k-th term; and the matrix
product reads entry (b, k) on the left and (o, k) on the right for the k-th term of output (b, o). -/

/-- Entry (b, i) of a vector stretched along the batch axis is entry i of the vector. -/
theorem row_of_full (b : Fin 524288) (i : Fin 128) : idx_main_v3 (idx_main_v4 (ix2 b i)) = ix1 i :=
  funext fun a => Fin.ext (by match a with | ⟨0, _⟩ => rfl)

/-- The same for a vector stretched along the rows of the 128 × 128 matrix. -/
theorem row_of_mat (o i : Fin 128) : idx_main_v25 (idx_main_v26 (ix2 o i)) = ix1 i :=
  funext fun a => Fin.ext (by match a with | ⟨0, _⟩ => rfl)

/-- The k-th term of the column sum at feature i reads entry (k, i). -/
theorem col_term (i : Fin 128) (k : Fin 524288) : idx_main_v0 (ix1 i) k = ix2 k i :=
  funext fun a => Fin.ext (by match a with | ⟨0, _⟩ => rfl | ⟨1, _⟩ => rfl)

/-- The k-th term of output (b, o) reads the left factor at (b, k) … -/
theorem dot_left (b : Fin 524288) (o k : Fin 128) : lidx_main_v35 (ix2 b o) k = ix2 b k :=
  funext fun a => Fin.ext (by match a with | ⟨0, _⟩ => rfl | ⟨1, _⟩ => rfl)

/-- … and the right factor at (o, k). -/
theorem dot_right (b : Fin 524288) (o k : Fin 128) : ridx_main_v35 (ix2 b o) k = ix2 o k :=
  funext fun a => Fin.ext (by match a with | ⟨0, _⟩ => rfl | ⟨1, _⟩ => rfl)

/-! ### The statistics -/

/-- The first quotient is the batch mean: the column sum (started from zero) over the batch size. -/
theorem mean_at (x0 : S524288x128.Idx → EReal) (i : Fin 128) :
    val_main_v2 (F := Ideal) x0 (ix1 i) = mean x0 i := by
  rw [val_main_v2_apply, val_main_v0_apply, val_main_v1_apply, val_main_cst_apply, val_main_cst_0_apply]
  simp only [Ideal.hostDivf_def, Ideal.ofBits_def, Ideal.ofBits_zero_f32, zero_add, col_term]
  rfl

/-- The mean stretched to the full array, first copy. -/
theorem mean_full (x0 : S524288x128.Idx → EReal) (b : Fin 524288) (i : Fin 128) :
    val_main_v4 (F := Ideal) x0 (ix2 b i) = mean x0 i := by
  rw [val_main_v4_apply, val_main_v3_apply]
  exact (congrArg (val_main_v2 (F := Ideal) x0) (row_of_full b i)).trans (mean_at x0 i)

/-- The mean stretched to the full array, second copy. -/
theorem mean_full' (x0 : S524288x128.Idx → EReal) (b : Fin 524288) (i : Fin 128) :
    val_main_v11 (F := Ideal) x0 (ix2 b i) = mean x0 i := by
  rw [val_main_v11_apply, val_main_v10_apply]
  exact (congrArg (val_main_v2 (F := Ideal) x0) (row_of_full b i)).trans (mean_at x0 i)

/-- The squared deviation of entry (b, i) from its column's mean. -/
theorem sqdev_at (x0 : S524288x128.Idx → EReal) (b : Fin 524288) (i : Fin 128) :
    val_main_v6 (F := Ideal) x0 (ix2 b i) = (x0 (ix2 b i) - mean x0 i) * (x0 (ix2 b i) - mean x0 i) := by
  rw [val_main_v6_apply, val_main_v5_apply, mean_full]
  rfl

/-- The second quotient is the mean of the squared deviations. -/
theorem var_at (x0 : S524288x128.Idx → EReal) (i : Fin 128) :
    val_main_v9 (F := Ideal) x0 (ix1 i) = var2 x0 i := by
  rw [val_main_v9_apply, val_main_v7_apply, val_main_v8_apply, val_main_cst_1_apply, val_main_cst_2_apply]
  simp only [Ideal.hostDivf_def, Ideal.ofBits_def, Ideal.ofBits_zero_f32, zero_add]
  have h : ∀ k : Fin 524288, val_main_v6 (F := Ideal) x0 (idx_main_v7 (ix1 i) k)
      = (x0 (ix2 k i) - mean x0 i) * (x0 (ix2 k i) - mean x0 i) :=
    fun k => (congrArg (val_main_v6 (F := Ideal) x0) (col_term i k)).trans (sqdev_at x0 k i)
  simp only [h]
  rfl

/-- The reciprocal square root of the shifted variance. -/
theorem rs_at (x0 : S524288x128.Idx → EReal) (i : Fin 128) :
    val_main_v15 (F := Ideal) x0 (ix1 i) = Ideal.rsqrt (var2 x0 i + eps) := by
  rw [val_main_v15_apply, val_main_v14_apply, var_at, val_main_v13_apply, val_main_cst_3_apply]
  rfl

/-- The same, stretched to the full array. -/
theorem rs_full (x0 : S524288x128.Idx → EReal) (b : Fin 524288) (i : Fin 128) :
    val_main_v17 (F := Ideal) x0 (ix2 b i) = Ideal.rsqrt (var2 x0 i + eps) := by
  rw [val_main_v17_apply, val_main_v16_apply]
  exact (congrArg (val_main_v15 (F := Ideal) x0) (row_of_full b i)).trans (rs_at x0 i)

/-- The scale vector stretched to the full array. -/
theorem gamma_full (x3 : S128.Idx → EReal) (b : Fin 524288) (i : Fin 128) :
    val_main_v20 (F := Ideal) x3 (ix2 b i) = x3 (ix1 i) := by
  rw [val_main_v20_apply, val_main_v19_apply]
  exact congrArg x3 (row_of_full b i)

/-- The shift vector stretched to the full array. -/
theorem beta_full (x4 : S128.Idx → EReal) (b : Fin 524288) (i : Fin 128) :
    val_main_v23 (F := Ideal) x4 (ix2 b i) = x4 (ix1 i) := by
  rw [val_main_v23_apply, val_main_v22_apply]
  exact congrArg x4 (row_of_full b i)

/-- The normalised, scaled and shifted entry (b, i). -/
theorem norm_at (x0 : S524288x128.Idx → EReal) (x3 x4 : S128.Idx → EReal) (b : Fin 524288) (i : Fin 128) :
    val_main_v24 (F := Ideal) x0 x3 x4 (ix2 b i) = norm2 x0 x3 x4 b i := by
  rw [val_main_v24_apply, val_main_v21_apply, val_main_v18_apply, val_main_v12_apply, mean_full', rs_full,
    gamma_full, beta_full]
  rfl

/-! ### The ternarised matrix -/

/-- The threshold vector stretched along the matrix's rows. -/
theorem alpha_mat (x5 : S128.Idx → EReal) (o i : Fin 128) :
    val_main_v26 (F := Ideal) x5 (ix2 o i) = x5 (ix1 i) := by
  rw [val_main_v26_apply, val_main_v25_apply]
  exact congrArg x5 (row_of_mat o i)

/-- Entry (o, i) of the ternarised matrix: the two comparisons of w − α against 0 and 1, nested as selects. -/
theorem tern_at (x1 : S128x128.Idx → EReal) (x5 : S128.Idx → EReal) (o i : Fin 128) :
    val_main_v34 (F := Ideal) x1 x5 (ix2 o i) = tern x1 x5 (ix2 o i) := by
  rw [val_main_v34_apply, val_main_v33_apply, val_main_v32_apply, val_main_v29_apply, val_main_v31_apply,
    val_main_v27_apply, alpha_mat, val_main_v28_apply, val_main_v30_apply, val_main_call1_v0_apply,
    val_main_call0_v0_apply, val_main_call0_v1_apply, val_main_cst_4_apply, val_main_cst_5_apply,
    val_main_cst_6_apply, val_main_cst_7_apply, val_main_cst_8_apply]
  rfl

/-- The reference's result, read one operation at a time, is the two-pass function of its arguments. -/
theorem result_eq (x0 : S524288x128.Idx → EReal) (x1 : S128x128.Idx → EReal) (x2 x3 x4 x5 : S128.Idx → EReal) :
    val_main_v38 (F := Ideal) x0 x1 x2 x3 x4 x5 = out2 x0 (tern x1 x5) x2 x3 x4 := by
  funext j
  obtain ⟨b, o, rfl⟩ : ∃ (b : Fin 524288) (o : Fin 128), j = ix2 b o := ⟨j 0, j 1, eq_ix2 j⟩
  rw [val_main_v38_apply, val_main_v35_apply, val_main_v37_apply, val_main_v36_apply]
  show (∑ k : Fin 128, _) + _ = (∑ k : Fin 128, norm2 x0 x3 x4 b k * tern x1 x5 (ix2 o k)) + x2 (ix1 o)
  refine congrArg₂ (· + ·) (Finset.sum_congr rfl fun k _ => ?_) (congrArg x2 (row_of_full b o))
  rw [dot_left, dot_right, norm_at, tern_at]

end Cert.ReferenceIdeal.RefValue

end
-- ==== Proof.Algebra.lean ====
import proofs.«177256_j65661460021995_1_alg».proof.Proof.Spec

noncomputable section

open Idealize.ShloMosaic Idealize.ShloMosaic.ValueIdx

namespace Cert.BNSpec

/-! ### The two constants -/

/-- The word `0x49000000` has sign 0, exponent field 146 and fraction 0: it denotes `2²³ · 2^(146 − 127 − 23) = 2¹⁹`. -/
theorem nB_eq : nB = ((524288 : ℝ) : EReal) := by
  simp [Ideal.ofBits, Ideal.ieee, -EReal.coe_mul]; norm_num

/-- The word `0x3727C5AC` has sign 0 and exponent field 110 (neither 0 nor 255): it denotes a positive real,
    a positive integer times a power of two. -/
theorem eps_pos : ∃ e : ℝ, 0 < e ∧ eps = (e : EReal) := by
  refine ⟨(2 ^ 23 + 2606508 : ℕ) * (2 : ℝ) ^ ((110 : ℤ) - 127 - 23), by positivity, ?_⟩
  simp [Ideal.ofBits, Ideal.ieee, -EReal.coe_mul]

/-! ### Coercion of a finite sum of reals -/

/-- The inclusion of the reals in the extended reals commutes with finite sums. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-! ### The variance identity on the reals -/

/-- With `μ = S / N` and `N` the number of terms, `Q / N − μ² = (∑ (f k − μ)²) / N`:
    expand the square, `∑ (f k − μ)² = Q − 2 μ S + N μ²`, and `μ S = N μ²`. -/
theorem real_var_identity {ι : Type*} [Fintype ι] (f : ι → ℝ) (N : ℝ) (hN : N ≠ 0)
    (hcard : (Fintype.card ι : ℝ) = N) :
    (∑ k, f k * f k) * (1 / N) - ((∑ k, f k) * (1 / N)) * ((∑ k, f k) * (1 / N))
      = (∑ k, (f k - (∑ k, f k) * (1 / N)) * (f k - (∑ k, f k) * (1 / N))) * (1 / N) := by
  generalize hS : (∑ k, f k) = S
  generalize hμ : S * (1 / N) = μ
  have h1 : ∑ k, (f k - μ) * (f k - μ) = (∑ k, f k * f k) - 2 * μ * S + N * (μ * μ) := by
    have h2 : ∀ k, (f k - μ) * (f k - μ) = f k * f k - 2 * μ * f k + μ * μ := fun k => by ring
    simp only [h2, Finset.sum_add_distrib, Finset.sum_sub_distrib, ← Finset.mul_sum, Finset.sum_const,
      Finset.card_univ, nsmul_eq_mul, hcard, hS]
    ring
  rw [h1, ← hμ]; field_simp; ring

/-- The two-pass variance is a nonnegative real. -/
theorem real_var_nonneg {ι : Type*} [Fintype ι] (f : ι → ℝ) (μ N : ℝ) (hN : 0 < N) :
    0 ≤ (∑ k, (f k - μ) * (f k - μ)) * (1 / N) :=
  mul_nonneg (Finset.sum_nonneg fun k _ => mul_self_nonneg _) (by positivity)

/-- On finite data the one-pass and the two-pass normalisations are one number. -/
theorem norm1_eq_norm2 (x : SX.Idx → EReal) (γ β : SV.Idx → EReal)
    (hx : ∀ j, ∃ r : ℝ, x j = (r : EReal)) (hγ : ∀ j, ∃ r : ℝ, γ j = (r : EReal)) (hβ : ∀ j, ∃ r : ℝ, β j = (r : EReal))
    (b : Fin 524288) (i : Fin 128) : norm1 x γ β b i = norm2 x γ β b i := by
  choose xr hxr using hx
  choose γr hγr using hγ
  choose βr hβr using hβ
  obtain ⟨e, he, heps⟩ := eps_pos
  have hN : (524288 : ℝ) ≠ 0 := by norm_num
  have hcard : (Fintype.card (Fin 524288) : ℝ) = 524288 := by rw [Fintype.card_fin]; norm_num
  -- the column of feature `i` as a real function of the batch index
  generalize hf : (fun k : Fin 524288 => xr (ix2 k i)) = f
  have hxf : ∀ k : Fin 524288, x (ix2 k i) = ((f k : ℝ) : EReal) := fun k => by rw [hxr, ← hf]
  -- the sums, the mean and the two variances are (coercions of) reals
  have hS : colSum x i = ((∑ k, f k : ℝ) : EReal) := by
    unfold colSum; simp only [hxf]; exact coe_sum _ _
  have hQ : colSumSq x i = ((∑ k, f k * f k : ℝ) : EReal) := by
    unfold colSumSq; simp only [hxf, ← EReal.coe_mul]; exact coe_sum _ _
  have hmean : mean x i = (((∑ k, f k) * (1 / 524288) : ℝ) : EReal) := by
    unfold mean; rw [nB_eq, Ideal.div_coe hN, hS, ← EReal.coe_mul]
  generalize hμ : (∑ k, f k) * (1 / (524288 : ℝ)) = μ at hmean
  have hv2 : var2 x i = (((∑ k, (f k - μ) * (f k - μ)) * (1 / 524288) : ℝ) : EReal) := by
    unfold var2
    simp only [hxf, hmean, ← EReal.coe_sub, ← EReal.coe_mul]
    rw [coe_sum, nB_eq, Ideal.div_coe hN, ← EReal.coe_mul]
  have hv1 : var1 x i = (((∑ k, (f k - μ) * (f k - μ)) * (1 / 524288) : ℝ) : EReal) := by
    unfold var1
    rw [hQ, hmean, nB_eq, Ideal.div_coe hN, ← EReal.coe_mul, ← EReal.coe_mul, ← EReal.coe_sub, ← hμ]
    exact congrArg _ (real_var_identity f 524288 hN hcard)
  generalize hv : (∑ k, (f k - μ) * (f k - μ)) * (1 / (524288 : ℝ)) = v at hv1 hv2
  have hv0 : 0 ≤ v := by rw [← hv]; exact real_var_nonneg f μ 524288 (by norm_num)
  -- so the reciprocal square root of variance + ε is a real
  have hpos : 0 < v + e := by linarith
  have hr : ∀ w : EReal, w = ((v : ℝ) : EReal) →
      Ideal.rsqrt (w + eps) = (((Real.sqrt (v + e))⁻¹ : ℝ) : EReal) := by
    rintro w rfl
    rw [heps, ← EReal.coe_add, Ideal.rsqrt_coe, if_neg (not_lt.mpr hpos.le), if_neg hpos.ne']
  -- both normalisations as one real expression
  unfold norm1 norm2 shift1 scale1
  rw [hr _ hv1, hr _ hv2, hmean, hxf, hγr, hβr]
  simp only [← EReal.coe_mul, ← EReal.coe_sub, ← EReal.coe_add]
  exact congrArg _ (by ring)

/-- So the two results agree. -/
theorem out1_eq_out2 (x : SX.Idx → EReal) (w : SW.Idx → EReal) (bias γ β : SV.Idx → EReal)
    (hx : ∀ j, ∃ r : ℝ, x j = (r : EReal)) (hγ : ∀ j, ∃ r : ℝ, γ j = (r : EReal)) (hβ : ∀ j, ∃ r : ℝ, β j = (r : EReal)) :
    out1 x w bias γ β = out2 x w bias γ β := by
  unfold out1 out2
  exact congrArg (fun xn => affine xn w bias) (funext fun b => funext fun i => norm1_eq_norm2 x γ β hx hγ hβ b i)

end Cert.BNSpec

end
-- ==== Proof.Finite.lean ====
import proofs.«177256_j65661460021995_1_alg».proof.Pre_finite_inputs
import proofs.«177256_j65661460021995_1_alg».proof.Proof.Gen.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.Finite

open Cert.Pre_finite_inputs

/-- The rank-0 shape has one index. -/
instance subsingleton_S_ : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max x (-x)` lies strictly below `+∞` is a real:
    at `⊥` and at `⊤` the absolute value is `⊤`, which is not below itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- The all-finite predicate on an array of any shape: if the conjunction over all entries of
    `|a j| < +∞` came out true, every entry of `a` is a real. -/
theorem real_of_all {s : Shape} {axes : List (Fin s.rank)} (a : s.Idx → EReal)
    (hb : S_.BroadcastsInDim s (![] : Fin 0 → Fin s.rank)) (hr : s.ReducesTo axes S_) (hu : 0 < S_.numel)
    (init : IVec S_ 1) (j0 : S_.Idx)
    (e : Host.reduce IntOp.andi
        (cmpf .olt (Host.absf (F := Ideal) (φ := .f32) a)
          (broadcastInDim s ![] hb (constant (F := Ideal) S_ .f32 0x7F800000#32))) init hr hu j0 = 1#1) :
    ∀ j, ∃ r : ℝ, a j = (r : EReal) := by
  intro j
  have hj := Host.reduce_andi_all _ init hr hu j0 e j
  apply real_of_abs_lt_top
  rw [← ofBits_inf]
  exact hj

/-- The precondition, read: every entry of `x`, `γ` and `β` is a real number. -/
theorem real_of_pre (a0 : S524288x128.Idx → EReal) (a1 : S128x128.Idx → EReal) (a2 a3 a4 a5 : S128.Idx → EReal)
    (h : Cert.Pre_finite_inputs.fn (F := Ideal) a0 a1 a2 a3 a4 a5 = fun _ => 1#1) :
    (∀ j, ∃ r : ℝ, a0 j = (r : EReal)) ∧ (∀ j, ∃ r : ℝ, a3 j = (r : EReal)) ∧ (∀ j, ∃ r : ℝ, a4 j = (r : EReal)) := by
  have h0 := congrFun h ValueIdx.ix0
  dsimp only [Cert.Pre_finite_inputs.fn, Cert.Pre_finite_inputs.fn_part1] at h0
  -- the conjunction of the six all-finite facts nests to the left: ((((a0 ∧ a1) ∧ a2) ∧ a3) ∧ a4) ∧ a5
  obtain ⟨h01234, _⟩ := IntOp.andi_eq_one.1 h0
  obtain ⟨h0123, h4⟩ := IntOp.andi_eq_one.1 h01234
  obtain ⟨h012, h3⟩ := IntOp.andi_eq_one.1 h0123
  obtain ⟨h01, _⟩ := IntOp.andi_eq_one.1 h012
  obtain ⟨hx, _⟩ := IntOp.andi_eq_one.1 h01
  exact ⟨real_of_all a0 _ _ _ _ _ hx, real_of_all a3 _ _ _ _ _ h3, real_of_all a4 _ _ _ _ _ h4⟩

end Cert.Finite

end
-- ==== Proof.lean ====
/-
  Training-mode batch normalisation feeding a product with a ternarised weight matrix: the kernel program computes
  the per-feature statistics in one streaming pass (sums of `x` and of `x²` accumulated block by block over the
  batch), folds them on the host into a scale and a shift, and in a second pass multiplies the scaled and shifted
  rows into the transposed ternary matrix; the reference computes the mean, then the mean of squared deviations,
  normalises, and takes the same product.

  At the ideal instance both results are, at (b, o), `∑_i xn b i · w o i + bias o`, with the same ternary matrix `w`
  and the same bias; what differs is how `xn` is written.  The sums over the batch agree because addition of extended
  reals is commutative and associative (32 blocks of 16384 rows are the 524288 rows).  The two variances and the two
  affine forms agree over the reals only, so the precondition's finiteness of `x`, `γ`, `β` is used there
  (Algebra.lean); the weight, `α` and the bias may be anything.

  The three frames are the generated ones (the reference's is its run with the result dropped); no operation was
  rewritten by the ideal pass, so the preservation claim is `True`.
-/
import proofs.«177256_j65661460021995_1_alg».proof.Defs
import proofs.«177256_j65661460021995_1_alg».proof.Proof.Gen.Kernel
import proofs.«177256_j65661460021995_1_alg».proof.Proof.Gen.Kernel.Frame
import proofs.«177256_j65661460021995_1_alg».proof.Proof.Gen.KernelIdeal
import proofs.«177256_j65661460021995_1_alg».proof.Proof.Gen.KernelIdeal.Frame
import proofs.«177256_j65661460021995_1_alg».proof.Proof.Gen.ReferenceIdeal
import proofs.«177256_j65661460021995_1_alg».proof.Proof.Gen.ReferenceIdeal.Run
import proofs.«177256_j65661460021995_1_alg».proof.Proof.Gen.ReferenceIdeal.Read
import proofs.«177256_j65661460021995_1_alg».proof.Proof.Gen.Pre_finite_inputs
import proofs.«177256_j65661460021995_1_alg».proof.Proof.KValue
import proofs.«177256_j65661460021995_1_alg».proof.Proof.RefValue
import proofs.«177256_j65661460021995_1_alg».proof.Proof.Algebra
import proofs.«177256_j65661460021995_1_alg».proof.Proof.Finite

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the two-pass function of the arguments: the kernel's one-pass form is that function on
    finite data, and the reference's run is it by reading its operations. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  obtain ⟨hx, hγ, hβ⟩ := Cert.Finite.real_of_pre _ _ _ _ _ _ (hpre c)
  exact (Cert.ReferenceIdeal.Read.val_main_v38_eq _ _ _ _ _ _).trans
    ((Cert.ReferenceIdeal.RefValue.result_eq _ _ _ _ _ _).trans (Cert.BNSpec.out1_eq_out2 _ _ _ _ _ hx hγ hβ).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
